-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x64 : Shape := ⟨2, ![100000, 64]⟩
abbrev S2000x64 : Shape := ⟨2, ![2000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 107
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x64, .f32⟩
  | .hbm, ⟨106, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x64_S2000x64_1_0_0_1_n_n_wf : DotDims.WF S2000x16 S16x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x16, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000, .f32⟩
  | .hbm, ⟨91, _⟩ => ⟨S3300000, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S3300000x64, .f32⟩
  | .hbm, ⟨101, _⟩ => ⟨S3300000x1, .f32⟩
  | .hbm, ⟨102, _⟩ => ⟨S3300000x64, .f32⟩
  | .hbm, ⟨103, _⟩ => ⟨S3300000x64, .f32⟩
  | .hbm, ⟨104, _⟩ => ⟨S_, .f32⟩
  | .hbm, ⟨105, _⟩ => ⟨S100000x64, .f32⟩
  | .hbm, ⟨106, _⟩ => ⟨S3300000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x64, .f32⟩
  | .hbm, ⟨125, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  dot_S100000x512_S512x16_S100000x16_1_0_0_1_n_n_wf : DotDims.WF S100000x512 S512x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Region0.lean ====
import proofs.«179819_j7026566496715_1_alg».proof.Proof.Gen.KernelIdeal.Frame
import proofs.«179819_j7026566496715_1_alg».proof.Proof.Gen.ReferenceIdeal
import Idealize.ShloMosaic.Lib.Pipeline.Value
import Idealize.ShloMosaic.Lib.ValueIdx
import Idealize.ShloMosaic.PureOps.Ideal.Laws
set_option maxRecDepth 16384
noncomputable section
namespace Cert.KernelIdeal.Region0
open Cert.KernelIdeal Cert.KernelIdeal.Gen Idealize.ShloMosaic Idealize.ShloMosaic.TcCoe Idealize.SL.Sem
open Idealize.ShloMosaic.Pipeline (Dat Cfg Window)

/-! # Region 0: fifty row blocks of one matrix product

The kernel's first region multiplies a [100000,512] array by a [512,16] array. Its grid has fifty points; point `t` loads
rows `2000 t … 2000 t + 1999` of the left array and the whole right array, multiplies them into a zero accumulator, and
writes the [2000,16] product back as rows `2000 t … 2000 t + 1999` of the output. On exact values entry `(r, q)` of
that output is `∑ k < 512, x (r, k) * w (k, q)`, which is entry `(r, q)` of the product of the whole arrays: a
blocked product is the whole product, by `0 + s = s` and a re-indexing of the contracted axis. -/

/-! ## The whole product at an index

At the exact instance the host's `dot_general` of a [100000,512] array `x` with a [512,16] array `w` is, at row `r`
and column `q`, the sum over `k < 512` of `x (r, k) * w (k, q)`: the dimension numbers contract axis 1 of the left
operand with axis 0 of the right one, and the one contracted axis is re-indexed by `Fin 512`. -/

/-- The left operand's index for output index `i` and contraction step `k`: row `i 0`, column `k`. -/
abbrev wholeLhs (i : Cert.ReferenceIdeal.S100000x16.Idx) (k : Fin 512) : Cert.ReferenceIdeal.S100000x512.Idx := fun a => match a with
  | ⟨0, _⟩ => ⟨(i 0).val, (i 0).isLt⟩
  | ⟨1, _⟩ => ⟨k.val, k.isLt⟩
/-- The right operand's index for output index `i` and contraction step `k`: row `k`, column `i 1`. -/
abbrev wholeRhs (i : Cert.ReferenceIdeal.S100000x16.Idx) (k : Fin 512) : Cert.ReferenceIdeal.S512x16.Idx := fun a => match a with
  | ⟨0, _⟩ => ⟨k.val, k.isLt⟩
  | ⟨1, _⟩ => ⟨(i 1).val, (i 1).isLt⟩

theorem whole_lhs_row (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x16_S100000x16_1_0_0_1_n_n.lhsBatch by decide), dif_pos (show (0 : Fin Cert.ReferenceIdeal.S100000x512.rank) ∈ Cert.ReferenceIdeal.dot_S100000x512_S512x16_S100000x16_1_0_0_1_n_n.lhsNonContracting by decide)]
  rfl
theorem whole_lhs_col (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.lhsIdx i q 1).val = (q ⟨0, by decide⟩).val :=
  Cert.ReferenceIdeal.dot_S100000x512_S512x16_S100000x16_1_0_0_1_n_n.lhsIdx_val_of_single rfl i q
theorem whole_rhs_row (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 0).val = (q ⟨0, by decide⟩).val :=
  Cert.ReferenceIdeal.dot_S100000x512_S512x16_S100000x16_1_0_0_1_n_n.rhsIdx_val_of_single rfl i q
theorem whole_rhs_col (i : Cert.ReferenceIdeal.S100000x16.Idx) (q : Cert.ReferenceIdeal.dot_S100000x512_S512x16_S100000x16_1_0_0_1_n_n.contr.Idx) :
    (Cert.ReferenceIdeal.dot_S100000x512_S512x16_S100000x16_1_0_0_1_n_n.rhsIdx i q 1).val = (i 1).val := by
  unfold DotDims.rhsIdx
  rw [dif_neg (show ¬(1 : Fin Cert.ReferenceIdeal.S512x16.rank) ∈ Cert.ReferenceIdeal.dot_S100000x512_S512x16_S100000x16_1_0_0_1_n_n.rhsBatch by decide), dif_pos (show (1 : Fin Cert.ReferenceIdeal.S512x16.rank) ∈ Cert.ReferenceIdeal.dot_S100000x512_S512x16_S100000x16_1_0_0_1_n_n.rhsNonContracting by decide)]
  rfl

/-- The whole product at an index: the sum over the contracted axis of the products of row `i 0` of `x` with column
    `i 1` of `w`. -/
theorem whole_dot_apply (x : FVec Ideal Cert.ReferenceIdeal.S100000x512 .f32) (w : FVec Ideal Cert.ReferenceIdeal.S512x16 .f32) (i : Cert.ReferenceIdeal.S100000x16.Idx) :
    Host.dotGeneral (F := Ideal) Cert.ReferenceIdeal.dot_S100000x512_S512x16_S100000x16_1_0_0_1_n_n none x w i
      = ∑ k : Fin 512, x (wholeLhs i k) * w (wholeRhs i k) := by
  simp only [Host.dotGeneral]
  rw [Ideal.dotGeneral_apply, ← Equiv.sum_comp (ValueIdx.contrEquiv1 Cert.ReferenceIdeal.dot_S100000x512_S512x16_S100000x16_1_0_0_1_n_n 512 rfl rfl).symm]
  refine Finset.sum_congr rfl fun k _ => ?_
  have hk := ValueIdx.contrEquiv1_symm_val Cert.ReferenceIdeal.dot_S100000x512_S512x16_S100000x16_1_0_0_1_n_n 512 rfl rfl k
  have el : Cert.ReferenceIdeal.dot_S100000x512_S512x16_S100000x16_1_0_0_1_n_n.lhsIdx i ((ValueIdx.contrEquiv1 Cert.ReferenceIdeal.dot_S100000x512_S512x16_S100000x16_1_0_0_1_n_n 512 rfl rfl).symm k) = wholeLhs i k := funext fun a => Fin.ext (by
    match a with
    | ⟨0, _⟩ => exact whole_lhs_row _ _
    | ⟨1, _⟩ => exact (whole_lhs_col _ _).trans hk)
  have er : Cert.ReferenceIdeal.dot_S100000x512_S512x16_S100000x16_1_0_0_1_n_n.rhsIdx i ((ValueIdx.contrEquiv1 Cert.ReferenceIdeal.dot_S100000x512_S512x16_S100000x16_1_0_0_1_n_n 512 rfl rfl).symm k) = wholeRhs i k := funext fun a => Fin.ext (by
    match a with
    | ⟨0, _⟩ => exact (whole_rhs_row _ _).trans hk
    | ⟨1, _⟩ => exact whole_rhs_col _ _)
  rw [el, er]

/-! ## One block's product at an index

The body multiplies the [2000,512] block `x0` of the left operand with the whole [512,16] right operand `x1` into a
zero accumulator, after a change of float format that is the identity on exact values. At row `j 0` and column `j 1`
of the block that is `0 + ∑ k < 512, x0 (j 0, k) * x1 (k, j 1)`, and `0 + s = s` needs no finiteness. -/

/-- The left block's index for block index `j` and contraction step `k`: row `j 0`, column `k`. -/
abbrev blockLhs (j : S2000x16.Idx) (k : Fin 512) : S2000x512.Idx := fun a => match a with
  | ⟨0, _⟩ => ⟨(j 0).val, (j 0).isLt⟩
  | ⟨1, _⟩ => ⟨k.val, k.isLt⟩
/-- The right operand's index for block index `j` and contraction step `k`: row `k`, column `j 1`. -/
abbrev blockRhs (j : S2000x16.Idx) (k : Fin 512) : S512x16.Idx := fun a => match a with
  | ⟨0, _⟩ => ⟨k.val, k.isLt⟩
  | ⟨1, _⟩ => ⟨(j 1).val, (j 1).isLt⟩

theorem block_lhs_row (j : S2000x16.Idx) (q : dot_S2000x512_S512x16_S2000x16_1_0_0_1_n_n.contr.Idx) :
    (dot_S2000x512_S512x16_S2000x16_1_0_0_1_n_n.lhsIdx j q 0).val = (j 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem block_lhs_col (j : S2000x16.Idx) (q : dot_S2000x512_S512x16_S2000x16_1_0_0_1_n_n.contr.Idx) :
    (dot_S2000x512_S512x16_S2000x16_1_0_0_1_n_n.lhsIdx j q 1).val = (q ⟨0, by decide⟩).val :=
  dot_S2000x512_S512x16_S2000x16_1_0_0_1_n_n.lhsIdx_val_of_single rfl j q
theorem block_rhs_row (j : S2000x16.Idx) (q : dot_S2000x512_S512x16_S2000x16_1_0_0_1_n_n.contr.Idx) :
    (dot_S2000x512_S512x16_S2000x16_1_0_0_1_n_n.rhsIdx j q 0).val = (q ⟨0, by decide⟩).val :=
  dot_S2000x512_S512x16_S2000x16_1_0_0_1_n_n.rhsIdx_val_of_single rfl j q
theorem block_rhs_col (j : S2000x16.Idx) (q : dot_S2000x512_S512x16_S2000x16_1_0_0_1_n_n.contr.Idx) :
    (dot_S2000x512_S512x16_S2000x16_1_0_0_1_n_n.rhsIdx j q 1).val = (j 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- The body's stored value at an index of the block: the sum over the contracted axis of the products of row `j 0`
    of the left block with column `j 1` of the right operand. -/
theorem block_product_apply (x0 : Vec Ideal S2000x512 .f32) (x1 : Vec Ideal S512x16 .f32) (j : S2000x16.Idx) :
    k0_pay1 (F := Ideal) x0 x1 j = ∑ k : Fin 512, x0 (blockLhs j k) * x1 (blockRhs j k) := by
  unfold k0_pay1
  refine (Ideal.matmul_constant_zero_apply dot_S2000x512_S512x16_S2000x16_1_0_0_1_n_n none _ _ j).trans ?_
  rw [← Equiv.sum_comp (ValueIdx.contrEquiv1 dot_S2000x512_S512x16_S2000x16_1_0_0_1_n_n 512 rfl rfl).symm]
  refine Finset.sum_congr rfl fun k _ => ?_
  have hk := ValueIdx.contrEquiv1_symm_val dot_S2000x512_S512x16_S2000x16_1_0_0_1_n_n 512 rfl rfl k
  have el : dot_S2000x512_S512x16_S2000x16_1_0_0_1_n_n.lhsIdx j ((ValueIdx.contrEquiv1 dot_S2000x512_S512x16_S2000x16_1_0_0_1_n_n 512 rfl rfl).symm k) = blockLhs j k := funext fun a => Fin.ext (by
    match a with
    | ⟨0, _⟩ => exact block_lhs_row _ _
    | ⟨1, _⟩ => exact (block_lhs_col _ _).trans hk)
  have er : dot_S2000x512_S512x16_S2000x16_1_0_0_1_n_n.rhsIdx j ((ValueIdx.contrEquiv1 dot_S2000x512_S512x16_S2000x16_1_0_0_1_n_n 512 rfl rfl).symm k) = blockRhs j k := funext fun a => Fin.ext (by
    match a with
    | ⟨0, _⟩ => exact (block_rhs_row _ _).trans hk
    | ⟨1, _⟩ => exact block_rhs_col _ _)
  show x0 (dot_S2000x512_S512x16_S2000x16_1_0_0_1_n_n.lhsIdx j ((ValueIdx.contrEquiv1 dot_S2000x512_S512x16_S2000x16_1_0_0_1_n_n 512 rfl rfl).symm k)) * x1 (dot_S2000x512_S512x16_S2000x16_1_0_0_1_n_n.rhsIdx j ((ValueIdx.contrEquiv1 dot_S2000x512_S512x16_S2000x16_1_0_0_1_n_n 512 rfl rfl).symm k)) = _
  rw [el, er]

/-! ## The index maps over the fifty points

Point `t` takes block row `t` of the left operand, the one block of the right operand, and block row `t` of the
output; every block sits at block column 0. -/

theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What one point writes back

Point `t` stores the product of rows `2000 t … 2000 t + 1999` of the left array with the whole right array, and its
block of the output is those same rows of the whole product. Element `(p, k)` of the left block is element
`(2000 t + p, k)` of the left array; the right block is the right array; element `(p, q)` of the output block is
element `(2000 t + p, q)` of the output array. So the two sums agree term by term. -/

theorem zero_offsets : (![0, 0] : Fin 2 → Nat) = fun _ => 0 := funext fun a => by
  match a with
  | ⟨0, _⟩ => rfl
  | ⟨1, _⟩ => rfl

/-- An element of point `t`'s block of the left array is the array's element `2000 t` rows further down. -/
theorem left_block_read (V : (c : Dev nD) → (b : Ref sig .tc) → Buf (Elt Ideal) ((c : Thread nD τ).loc b)) (c : Dev nD) (t : Fin cfg0.N)
    (y : S2000x512.Idx) (i : S100000x512.Idx) (h0 : (i 0).val = 2000 * t.val + (y 0).val) (h1 : (i 1).val = (y 1).val) :
    (iblk0 (F := Ideal) V c 0 t : Vec Ideal S2000x512 .f32) y = (V c main_arg0 : S100000x512.Idx → Elt Ideal .f32) i := by
  obtain ⟨e0, e1, -⟩ := block_indices t
  unfold iblk0
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 512 + 1 * (y 1).val = (i 1).val; omega

/-- The right operand's one block is the whole right array, at every point. -/
theorem right_block_read (V : (c : Dev nD) → (b : Ref sig .tc) → Buf (Elt Ideal) ((c : Thread nD τ).loc b)) (c : Dev nD) (t : Fin cfg0.N)
    (y : S512x16.Idx) (i : S512x16.Idx) (h0 : (i 0).val = (y 0).val) (h1 : (i 1).val = (y 1).val) :
    (iblk0 (F := Ideal) V c 1 t : Vec Ideal S512x16 .f32) y = (V c main_arg2 : S512x16.Idx → Elt Ideal .f32) i := by
  obtain ⟨-, -, e2, e3, -⟩ := block_indices t
  unfold iblk0
  show V c main_arg2 (((cfg0.win 1).blk t).view.emb y) = V c main_arg2 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 16 + 1 * (y 1).val = (i 1).val; omega

/-- An element of point `t`'s block of the output sits `2000 t` rows further down in the output array, in its own column. -/
theorem out_block_row (t : Fin cfg0.N) (j : S2000x16.Idx) :
    ((((cfg0.win 2).blk t).view.emb j) (0 : Fin 2)).val = 2000 * t.val + (j 0).val := by
  obtain ⟨-, -, -, -, e4, -⟩ := block_indices t
  show win0_2.index t (0 : Fin 2) * 2000 + 1 * (j 0).val = _
  omega
theorem out_block_col (t : Fin cfg0.N) (j : S2000x16.Idx) :
    ((((cfg0.win 2).blk t).view.emb j) (1 : Fin 2)).val = (j 1).val := by
  obtain ⟨-, -, -, -, -, e5⟩ := block_indices t
  show win0_2.index t (1 : Fin 2) * 16 + 1 * (j 1).val = _
  omega

/-- What point `t` writes back is its block of the whole product of the two arrays as the region finds them. -/
theorem written_back (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Host.dotGeneral (F := Ideal) (φ₁ := .f32) (φ₂ := .f32) Cert.ReferenceIdeal.dot_S100000x512_S512x16_S100000x16_1_0_0_1_n_n none (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x16) zero_offsets]
  refine funext fun (j : S2000x16.Idx) => ?_
  show k0_pay1 (F := Ideal) (iblk0 V c 0 t) (iblk0 V c 1 t) j
    = Host.dotGeneral (F := Ideal) (φ₁ := .f32) (φ₂ := .f32) Cert.ReferenceIdeal.dot_S100000x512_S512x16_S100000x16_1_0_0_1_n_n none (V c main_arg0) (V c main_arg2) (((cfg0.win 2).blk t).view.emb j)
  refine (block_product_apply (iblk0 V c 0 t) (iblk0 V c 1 t) j).trans ?_
  refine Eq.trans ?_ (whole_dot_apply (V c main_arg0) (V c main_arg2) (((cfg0.win 2).blk t).view.emb j)).symm
  refine Finset.sum_congr rfl fun k _ => ?_
  have hl := left_block_read V c t (blockLhs j k) (wholeLhs (((cfg0.win 2).blk t).view.emb j) k) (out_block_row t j) rfl
  have hr := right_block_read V c t (blockRhs j k) (wholeRhs (((cfg0.win 2).blk t).view.emb j) k) rfl (out_block_col t j)
  exact congrArg₂ (· * ·) hl hr

/-! ## From the blocks to the array

The fifty blocks of 2000 rows tile the 100000 rows, and every point writes its block back: row `r` is written by point
`r / 2000`. So after the last write-back the output array is the whole product. -/

/-- An index of the output array is in point `t`'s block iff each coordinate is in the block's range on its axis. -/
theorem mem_out_block (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v32).slice (win0_2.rect t)).set ↔ _
  rw [View.set_slice_whole, Rect.mem_set_unit]
  exact Iff.rfl

/-- Every index of the output array lies in the block of a point that writes back: the point `(i 0) / 2000`. -/
theorem every_index_written (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 50 := N_0
  have hlt : (i 0).val / 2000 < cfg0.N := by show (i 0).val / 2000 < grid0.N; omega
  obtain ⟨-, -, -, -, e4, e5⟩ := block_indices ⟨(i 0).val / 2000, hlt⟩
  refine ⟨⟨(i 0).val / 2000, hlt⟩, flush0_2 _, ?_⟩
  rw [mem_out_block]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 16 ≤ (i 1).val ∧ (i 1).val < win0_2.index ⟨(i 0).val / 2000, hlt⟩ (1 : Fin 2) * 16 + 16
    rw [e5]; omega

/-- After region 0's fifty write-backs its output array holds the whole-array product of the two input arrays as the
    region found them. -/
theorem final0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x512_S512x16_S100000x16_1_0_0_1_n_n none (V c main_arg0) (V c main_arg2) :=
  (dat0 V c).arrAt_eq_of_cover 2 _ (fun t _ => written_back V c t) every_index_written

end Cert.KernelIdeal.Region0
end
-- ==== Proof.Region1.lean ====
import proofs.«179819_j7026566496715_1_alg».proof.Proof.Gen.KernelIdeal.Frame
import proofs.«179819_j7026566496715_1_alg».proof.Proof.Gen.ReferenceIdeal
import Idealize.ShloMosaic.Lib.Pipeline.Value
import Idealize.ShloMosaic.Lib.ValueIdx
import Idealize.ShloMosaic.PureOps.Ideal.Laws
set_option maxRecDepth 16384
noncomputable section
namespace Cert.KernelIdeal.Region1
open Cert.KernelIdeal Cert.KernelIdeal.Gen Idealize.ShloMosaic Idealize.ShloMosaic.TcCoe Idealize.SL.Sem
open Idealize.ShloMosaic.Pipeline (Dat Cfg Window)

/-! ## The whole-array product at an index

The reference multiplies the [100000,16] array by the [16,64] array in one `dot_general` contracting axis 1 of the
left operand with axis 0 of the right. At the extended reals its entry (r, q) is the sum over k < 16 of x(r,k)·w(k,q). -/

/-- The left operand's index at output index `i` and contraction index `q`: row `i 0` … -/
theorem whole_lhs_row (i : Cert.ReferenceIdeal.S100000x64.Idx) (q : Cert.ReferenceIdeal.dot_S100000x16_S16x64_S100000x64_1_0_0_1_n_n.contr.Idx) :
    (Cert.ReferenceIdeal.dot_S100000x16_S16x64_S100000x64_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x64_S100000x64_1_0_0_1_n_n.lhsBatch by decide), dif_pos (show (0 : Fin Cert.ReferenceIdeal.S100000x16.rank) ∈ Cert.ReferenceIdeal.dot_S100000x16_S16x64_S100000x64_1_0_0_1_n_n.lhsNonContracting by decide)]
  rfl
/-- … and column the contraction coordinate. -/
theorem whole_lhs_col (i : Cert.ReferenceIdeal.S100000x64.Idx) (q : Cert.ReferenceIdeal.dot_S100000x16_S16x64_S100000x64_1_0_0_1_n_n.contr.Idx) :
    (Cert.ReferenceIdeal.dot_S100000x16_S16x64_S100000x64_1_0_0_1_n_n.lhsIdx i q 1).val = (q ⟨0, by decide⟩).val :=
  Cert.ReferenceIdeal.dot_S100000x16_S16x64_S100000x64_1_0_0_1_n_n.lhsIdx_val_of_single rfl i q
/-- The right operand's index: row the contraction coordinate … -/
theorem whole_rhs_row (i : Cert.ReferenceIdeal.S100000x64.Idx) (q : Cert.ReferenceIdeal.dot_S100000x16_S16x64_S100000x64_1_0_0_1_n_n.contr.Idx) :
    (Cert.ReferenceIdeal.dot_S100000x16_S16x64_S100000x64_1_0_0_1_n_n.rhsIdx i q 0).val = (q ⟨0, by decide⟩).val :=
  Cert.ReferenceIdeal.dot_S100000x16_S16x64_S100000x64_1_0_0_1_n_n.rhsIdx_val_of_single rfl i q
/-- … and column `i 1`. -/
theorem whole_rhs_col (i : Cert.ReferenceIdeal.S100000x64.Idx) (q : Cert.ReferenceIdeal.dot_S100000x16_S16x64_S100000x64_1_0_0_1_n_n.contr.Idx) :
    (Cert.ReferenceIdeal.dot_S100000x16_S16x64_S100000x64_1_0_0_1_n_n.rhsIdx i q 1).val = (i 1).val := by
  unfold DotDims.rhsIdx
  rw [dif_neg (show ¬(1 : Fin Cert.ReferenceIdeal.S16x64.rank) ∈ Cert.ReferenceIdeal.dot_S100000x16_S16x64_S100000x64_1_0_0_1_n_n.rhsBatch by decide), dif_pos (show (1 : Fin Cert.ReferenceIdeal.S16x64.rank) ∈ Cert.ReferenceIdeal.dot_S100000x16_S16x64_S100000x64_1_0_0_1_n_n.rhsNonContracting by decide)]
  rfl

/-- Entry (row of `i`, `k`) of the left array. -/
abbrev wholeL (i : S100000x64.Idx) (k : Fin 16) : S100000x16.Idx := fun a => match a with
  | ⟨0, _⟩ => ⟨(i 0).val, (i 0).isLt⟩
  | ⟨1, _⟩ => ⟨k.val, k.isLt⟩
/-- Entry (`k`, column of `i`) of the right array. -/
abbrev wholeR (i : S100000x64.Idx) (k : Fin 16) : S16x64.Idx := fun a => match a with
  | ⟨0, _⟩ => ⟨k.val, k.isLt⟩
  | ⟨1, _⟩ => ⟨(i 1).val, (i 1).isLt⟩

/-- The whole-array product at an index: the sum over the 16 contraction coordinates of the products of the entries. -/
theorem whole_dot_apply (x : (⟨S100000x16, .f32⟩ : BufTy).Contents (Elt Ideal)) (w : (⟨S16x64, .f32⟩ : BufTy).Contents (Elt Ideal)) (i : S100000x64.Idx) :
    Host.dotGeneral (F := Ideal) (φ₁ := .f32) (φ₂ := .f32) Cert.ReferenceIdeal.dot_S100000x16_S16x64_S100000x64_1_0_0_1_n_n none x w i
      = ∑ k : Fin 16, x (wholeL i k) * w (wholeR i k) := by
  simp only [Host.dotGeneral]
  rw [Ideal.dotGeneral_apply, ← Equiv.sum_comp (ValueIdx.contrEquiv1 Cert.ReferenceIdeal.dot_S100000x16_S16x64_S100000x64_1_0_0_1_n_n 16 rfl rfl).symm]
  refine Finset.sum_congr rfl fun k _ => ?_
  have hk := ValueIdx.contrEquiv1_symm_val Cert.ReferenceIdeal.dot_S100000x16_S16x64_S100000x64_1_0_0_1_n_n 16 rfl rfl k
  have el : Cert.ReferenceIdeal.dot_S100000x16_S16x64_S100000x64_1_0_0_1_n_n.lhsIdx i ((ValueIdx.contrEquiv1 Cert.ReferenceIdeal.dot_S100000x16_S16x64_S100000x64_1_0_0_1_n_n 16 rfl rfl).symm k) = wholeL i k := funext fun a => Fin.ext (by
    match a with
    | ⟨0, _⟩ => exact whole_lhs_row _ _
    | ⟨1, _⟩ => exact (whole_lhs_col _ _).trans hk)
  have er : Cert.ReferenceIdeal.dot_S100000x16_S16x64_S100000x64_1_0_0_1_n_n.rhsIdx i ((ValueIdx.contrEquiv1 Cert.ReferenceIdeal.dot_S100000x16_S16x64_S100000x64_1_0_0_1_n_n 16 rfl rfl).symm k) = wholeR i k := funext fun a => Fin.ext (by
    match a with
    | ⟨0, _⟩ => exact (whole_rhs_row _ _).trans hk
    | ⟨1, _⟩ => exact whole_rhs_col _ _)
  rw [el, er]

/-! ## One block's product at an index

The body loads a [2000,16] block of the left array and the whole [16,64] right array, narrows both to bf16 (the
identity on extended reals), and multiplies them into a zero accumulator: entry (p, q) of the [2000,64] result is the
sum over k < 16 of x0(p,k)·x1(k,q). -/

/-- The left block's index at output index `j` and contraction index `r`: row `j 0` … -/
theorem block_lhs_row (j : S2000x64.Idx) (r : dot_S2000x16_S16x64_S2000x64_1_0_0_1_n_n.contr.Idx) :
    (dot_S2000x16_S16x64_S2000x64_1_0_0_1_n_n.lhsIdx j r 0).val = (j 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
/-- … and column the contraction coordinate. -/
theorem block_lhs_col (j : S2000x64.Idx) (r : dot_S2000x16_S16x64_S2000x64_1_0_0_1_n_n.contr.Idx) :
    (dot_S2000x16_S16x64_S2000x64_1_0_0_1_n_n.lhsIdx j r 1).val = (r ⟨0, by decide⟩).val :=
  dot_S2000x16_S16x64_S2000x64_1_0_0_1_n_n.lhsIdx_val_of_single rfl j r
/-- The right operand's index: row the contraction coordinate … -/
theorem block_rhs_row (j : S2000x64.Idx) (r : dot_S2000x16_S16x64_S2000x64_1_0_0_1_n_n.contr.Idx) :
    (dot_S2000x16_S16x64_S2000x64_1_0_0_1_n_n.rhsIdx j r 0).val = (r ⟨0, by decide⟩).val :=
  dot_S2000x16_S16x64_S2000x64_1_0_0_1_n_n.rhsIdx_val_of_single rfl j r
/-- … and column `j 1`. -/
theorem block_rhs_col (j : S2000x64.Idx) (r : dot_S2000x16_S16x64_S2000x64_1_0_0_1_n_n.contr.Idx) :
    (dot_S2000x16_S16x64_S2000x64_1_0_0_1_n_n.rhsIdx j r 1).val = (j 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- The block product at entry (p, q): the sum over the 16 contraction coordinates of x0(p,k)·x1(k,q). -/
theorem block_dot_apply (x0 : Vec Ideal S2000x16 .f32) (x1 : Vec Ideal S16x64 .f32) (p : Fin 2000) (q : Fin 64) :
    k1_pay1 (F := Ideal) x0 x1 (ValueIdx.ix2 p q) = ∑ k : Fin 16, x0 (ValueIdx.ix2 p k) * x1 (ValueIdx.ix2 k q) := by
  unfold k1_pay1
  refine (Ideal.matmul_constant_zero_apply dot_S2000x16_S16x64_S2000x64_1_0_0_1_n_n none _ _ (ValueIdx.ix2 p q)).trans ?_
  rw [← Equiv.sum_comp (ValueIdx.contrEquiv1 dot_S2000x16_S16x64_S2000x64_1_0_0_1_n_n 16 rfl rfl).symm]
  refine Finset.sum_congr rfl fun k _ => ?_
  have hk := ValueIdx.contrEquiv1_symm_val dot_S2000x16_S16x64_S2000x64_1_0_0_1_n_n 16 rfl rfl k
  have el : dot_S2000x16_S16x64_S2000x64_1_0_0_1_n_n.lhsIdx (ValueIdx.ix2 p q) ((ValueIdx.contrEquiv1 dot_S2000x16_S16x64_S2000x64_1_0_0_1_n_n 16 rfl rfl).symm k) = ValueIdx.ix2 p k := funext fun a => Fin.ext (by
    match a with
    | ⟨0, _⟩ => exact block_lhs_row _ _
    | ⟨1, _⟩ => exact (block_lhs_col _ _).trans hk)
  have er : dot_S2000x16_S16x64_S2000x64_1_0_0_1_n_n.rhsIdx (ValueIdx.ix2 p q) ((ValueIdx.contrEquiv1 dot_S2000x16_S16x64_S2000x64_1_0_0_1_n_n 16 rfl rfl).symm k) = ValueIdx.ix2 k q := funext fun a => Fin.ext (by
    match a with
    | ⟨0, _⟩ => exact (block_rhs_row _ _).trans hk
    | ⟨1, _⟩ => exact block_rhs_col _ _)
  rw [el, er]
  show shapeCast S2000x16 x0 shapeCasts_S2000x16_S2000x16 (ValueIdx.ix2 p k) * x1 (ValueIdx.ix2 k q) = _
  rw [shapeCast_self]

/-! ## The blocks' places

Point `t` of the 50 reads rows 2000·t … 2000·t+1999 of the left array, the whole right array, and writes the same rows
of the result. -/

theorem zero_offsets : (![0, 0] : Fin 2 → Nat) = fun _ => 0 := funext fun a => by fin_cases a <;> rfl

/-- The printed index maps, decided over the 50 points: the left and the result windows sit at block row `t`, block
    column 0; the right window at block (0, 0). -/
theorem block_places : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## A block of the product is the product of the blocks

If `x0` is rows 2000·T … of `x` and `x1` is all of `w`, then entry `j` of the block product is entry `i` of the
whole product, for `i` the place of `j` in the whole result: both are the same sum of 16 products. -/

theorem block_of_whole (x : (⟨S100000x16, .f32⟩ : BufTy).Contents (Elt Ideal)) (w : (⟨S16x64, .f32⟩ : BufTy).Contents (Elt Ideal))
    (x0 : Vec Ideal S2000x16 .f32) (x1 : Vec Ideal S16x64 .f32) (T : Nat)
    (h0 : ∀ (y : S2000x16.Idx) (z : S100000x16.Idx), (z 0).val = T * 2000 + (y 0).val → (z 1).val = (y 1).val → x0 y = x z)
    (h1 : ∀ (y z : S16x64.Idx), (z 0).val = (y 0).val → (z 1).val = (y 1).val → x1 y = w z)
    (j : S2000x64.Idx) (i : S100000x64.Idx) (hi0 : (i 0).val = T * 2000 + (j 0).val) (hi1 : (i 1).val = (j 1).val) :
    k1_pay1 (F := Ideal) x0 x1 j
      = Host.dotGeneral (F := Ideal) (φ₁ := .f32) (φ₂ := .f32) Cert.ReferenceIdeal.dot_S100000x16_S16x64_S100000x64_1_0_0_1_n_n none x w i := by
  obtain ⟨p, q, rfl⟩ : ∃ (p : Fin 2000) (q : Fin 64), j = ValueIdx.ix2 p q := ⟨j 0, j 1, ValueIdx.eq_ix2 j⟩
  rw [block_dot_apply, whole_dot_apply]
  refine Finset.sum_congr rfl fun k _ => ?_
  rw [h0 (ValueIdx.ix2 p k) (wholeL i k) hi0 rfl, h1 (ValueIdx.ix2 k q) (wholeR i k) rfl hi1]

/-- WHAT POINT `t` WRITES BACK is block `t` of the whole-array product of the two arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S100000x16_S16x64_S100000x64_1_0_0_1_n_n none (V c main_v49) (V c main_arg4)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S16x64) zero_offsets]
  obtain ⟨e0, e1, e2, e3, e4, e5⟩ := block_places t
  funext j
  show k1_pay1 (F := Ideal) (iblk1 V c 0 t) (iblk1 V c 1 t) j
    = Host.dotGeneral (F := Ideal) (φ₁ := .f32) (φ₂ := .f32) Cert.ReferenceIdeal.dot_S100000x16_S16x64_S100000x64_1_0_0_1_n_n none (V c main_v49) (V c main_arg4) (((cfg1.win 2).blk t).view.emb j)
  refine block_of_whole (V c main_v49) (V c main_arg4) (iblk1 V c 0 t) (iblk1 V c 1 t) t.val ?_ ?_ j (((cfg1.win 2).blk t).view.emb j) ?_ ?_
  · intro y z hz0 hz1
    show V c main_v49 (((cfg1.win 0).blk t).view.emb y) = V c main_v49 z
    refine congrArg (V c main_v49) (funext fun a => Fin.ext ?_)
    match a with
    | ⟨0, _⟩ => show win1_0.index t (0 : Fin 2) * 2000 + 1 * (y 0).val = (z 0).val; omega
    | ⟨1, _⟩ => show win1_0.index t (1 : Fin 2) * 16 + 1 * (y 1).val = (z 1).val; omega
  · intro y z hz0 hz1
    show V c main_arg4 (((cfg1.win 1).blk t).view.emb y) = V c main_arg4 z
    refine congrArg (V c main_arg4) (funext fun a => Fin.ext ?_)
    match a with
    | ⟨0, _⟩ => show win1_1.index t (0 : Fin 2) * 16 + 1 * (y 0).val = (z 0).val; omega
    | ⟨1, _⟩ => show win1_1.index t (1 : Fin 2) * 64 + 1 * (y 1).val = (z 1).val; omega
  · show win1_2.index t (0 : Fin 2) * 2000 + 1 * (j 0).val = t.val * 2000 + (j 0).val; omega
  · show win1_2.index t (1 : Fin 2) * 64 + 1 * (j 1).val = (j 1).val; omega

/-! ## The 50 blocks fill the result -/

/-- An index of the result is in point `t`'s block iff each coordinate is in the block's range on its axis. -/
theorem mem_block (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Row `r` of the result is written by point `r / 2000`. -/
theorem every_row_written (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by have hN := N_1; show (i 0).val / 2000 < grid1.N; omega⟩, rfl⟩
  obtain ⟨-, -, -, -, e4, e5⟩ := block_places t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After region 1's 50 write-backs its output array holds the whole-array product of the two input arrays as the
    region found them. -/
theorem final1 (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S100000x16_S16x64_S100000x64_1_0_0_1_n_n none (V c main_v49) (V c main_arg4) :=
  (dat1 V c).arrAt_eq_of_cover 2 _ (fun t _ => flushed_eq V c t) every_row_written

end Cert.KernelIdeal.Region1
end
-- ==== Proof.LibTypedRef.lean ====
/-
  A general fact about the typed references of host operations.

  A typed reference carries a buffer together with the proof that the buffer's type is the value's type; contents are
  moved into and out of the buffer's type along that proof. Moving in and then out gives the contents back.
-/
import Idealize.ShloMosaic.Lib.StableHlo

noncomputable section

namespace Cert.LibTypedRef

open Idealize.ShloMosaic Idealize.ShloMosaic.StableHlo

variable {sig : RefSig} {Val : EltTy → Type}

/-- Contents written into a typed reference's buffer and read back are the contents. -/
theorem ofBuf_toBuf {T : BufTy} (x : TRef sig T) (v : T.Contents Val) : x.ofBuf (x.toBuf v) = v := by
  obtain ⟨r, rfl, _, _⟩ := x
  rfl

end Cert.LibTypedRef

end
-- ==== Proof.HostStages.lean ====
/-
  The host stretches of the kernel's program, read back as values.

  Around its two matrix products the program applies, to the edge list and to each product, the very operations the
  reference applies: the source and destination lists with the self loops appended, the in-degrees by a scatter-add of
  ones, their inverse square roots where positive, the per-edge normalisation, and per layer the gather of the product's
  rows along the sources, the scaling by the normalisation, the scatter-add along the destinations and the bias (then the
  rectifier, or the log-softmax over a row). Each lemma below reads one group of those operations from ANY contents `W`
  of the buffers: the buffer the group leaves is the reference's stage at the same place in the computation, a function
  of @main's arguments, provided the buffers the group starts from hold the earlier stages. No operation is opened: the
  two sides are the same operations applied to the same operands. (The reference computes the normalisation once per
  layer and the kernel's program once for both; the two computations are one term of the edge list.)
-/
import proofs.«179819_j7026566496715_1_alg».proof.Proof.Gen.KernelIdeal.Launch
import proofs.«179819_j7026566496715_1_alg».proof.Proof.RefRead
import proofs.«179819_j7026566496715_1_alg».proof.Proof.LibTypedRef
import Idealize.ShloMosaic.Lib.StableHlo.Run

noncomputable section

namespace Cert.KernelIdeal.HostStages

open Cert.KernelIdeal Cert.KernelIdeal.Gen Idealize.ShloMosaic Idealize.ShloMosaic.TcCoe Idealize.ShloMosaic.StableHlo
open Cert.ReferenceIdeal.ReadP
open Cert.LibTypedRef (ofBuf_toBuf)

variable {F : FTy → Type} [FloatOps F]
variable (W : Valuation τ sig (Elt F))

/-! ## The edge lists, the degrees and their inverse square roots (the first stretch) -/

/-- The buffers after the first stretch. -/
abbrev edges : Valuation τ sig (Elt F) := after hostOps0 W

/-- The sources with the self loops appended. -/
theorem edges_src : edges W (Proc.devRef .tc main_v3) = val_main_v3 (F := F) (W (Proc.devRef .tc main_arg1)) := by
  after_results
  rfl
/-- The destinations with the self loops appended. -/
theorem edges_dst : edges W (Proc.devRef .tc main_v6) = val_main_v6 (F := F) (W (Proc.devRef .tc main_arg1)) := by
  after_results
  rfl
/-- Where the in-degree is positive. -/
theorem edges_pos : edges W (Proc.devRef .tc main_v12) = val_main_v12 (F := F) (W (Proc.devRef .tc main_arg1)) := by
  after_results
  rfl
/-- The inverse square root of the in-degree raised to at least one. -/
theorem edges_rsqrt : edges W (Proc.devRef .tc main_v15) = val_main_v15 (F := F) (W (Proc.devRef .tc main_arg1)) := by
  after_results
  rfl
/-- The zero the inverse square root is replaced by where the in-degree is not positive. -/
theorem edges_zero : edges W (Proc.devRef .tc main_cst_3) = val_main_cst_3 (F := F) := by
  after_results
  rfl
theorem edges_keep_arg0 : edges W (Proc.devRef .tc main_arg0) = W (Proc.devRef .tc main_arg0) := by
  after_results_simp
theorem edges_keep_arg2 : edges W (Proc.devRef .tc main_arg2) = W (Proc.devRef .tc main_arg2) := by
  after_results_simp
theorem edges_keep_arg3 : edges W (Proc.devRef .tc main_arg3) = W (Proc.devRef .tc main_arg3) := by
  after_results_simp
theorem edges_keep_arg4 : edges W (Proc.devRef .tc main_arg4) = W (Proc.devRef .tc main_arg4) := by
  after_results_simp
theorem edges_keep_arg5 : edges W (Proc.devRef .tc main_arg5) = W (Proc.devRef .tc main_arg5) := by
  after_results_simp

/-! ## The per-edge normalisation (the call of `where` and the stretch after it) -/

/-- The buffers after the two stretches that follow the first. -/
abbrev norms : Valuation τ sig (Elt F) := after hostOps0_2 (after hostOps0_1 W)

/-- The normalisation of an edge: the product of the inverse square roots of its two ends' in-degrees, each read
    with its index wrapped once if negative. -/
theorem norms_norm (x1 : (⟨S2x3200000, .i32⟩ : BufTy).Contents (Elt F))
    (h3 : W (Proc.devRef .tc main_v3) = val_main_v3 (F := F) x1) (h6 : W (Proc.devRef .tc main_v6) = val_main_v6 (F := F) x1)
    (h12 : W (Proc.devRef .tc main_v12) = val_main_v12 (F := F) x1) (h15 : W (Proc.devRef .tc main_v15) = val_main_v15 (F := F) x1)
    (hz : W (Proc.devRef .tc main_cst_3) = val_main_cst_3 (F := F)) :
    norms W (Proc.devRef .tc main_v31) = val_main_v32 (F := F) x1 := by
  after_results_simp
  simp only [TRef.ofBuf, TRef.toBuf, cast_eq]
  rw [h3, h6, h12, h15, hz]
  rfl
theorem norms_keep_v3 : norms W (Proc.devRef .tc main_v3) = W (Proc.devRef .tc main_v3) := by
  after_results_simp
theorem norms_keep_v6 : norms W (Proc.devRef .tc main_v6) = W (Proc.devRef .tc main_v6) := by
  after_results_simp
theorem norms_keep_arg0 : norms W (Proc.devRef .tc main_arg0) = W (Proc.devRef .tc main_arg0) := by
  after_results_simp
theorem norms_keep_arg2 : norms W (Proc.devRef .tc main_arg2) = W (Proc.devRef .tc main_arg2) := by
  after_results_simp
theorem norms_keep_arg3 : norms W (Proc.devRef .tc main_arg3) = W (Proc.devRef .tc main_arg3) := by
  after_results_simp
theorem norms_keep_arg4 : norms W (Proc.devRef .tc main_arg4) = W (Proc.devRef .tc main_arg4) := by
  after_results_simp
theorem norms_keep_arg5 : norms W (Proc.devRef .tc main_arg5) = W (Proc.devRef .tc main_arg5) := by
  after_results_simp

/-! ## The first layer after its product: propagate, add the bias, rectify -/

/-- The buffers after the two stretches between the products. -/
abbrev hidden : Valuation τ sig (Elt F) := after hostOps1_1 (after hostOps1 W)

/-- The hidden features: the first product's rows gathered along the sources, scaled by the normalisation, summed along
    the destinations, the bias added, the negative part cut. -/
theorem hidden_val (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (h32 : W (Proc.devRef .tc main_v32) = val_main_v17 (F := F) x0 x2)
    (h3 : W (Proc.devRef .tc main_v3) = val_main_v3 (F := F) x1) (h6 : W (Proc.devRef .tc main_v6) = val_main_v6 (F := F) x1)
    (h31 : W (Proc.devRef .tc main_v31) = val_main_v32 (F := F) x1) (hb : W (Proc.devRef .tc main_arg3) = x3) :
    hidden W (Proc.devRef .tc main_v49) = val_main_v49 (F := F) x0 x1 x2 x3 := by
  after_results_simp
  simp only [TRef.ofBuf, TRef.toBuf, cast_eq]
  rw [h32, h3, h6, h31, hb]
  rfl
theorem hidden_keep_v3 : hidden W (Proc.devRef .tc main_v3) = W (Proc.devRef .tc main_v3) := by
  after_results_simp
theorem hidden_keep_v6 : hidden W (Proc.devRef .tc main_v6) = W (Proc.devRef .tc main_v6) := by
  after_results_simp
theorem hidden_keep_v31 : hidden W (Proc.devRef .tc main_v31) = W (Proc.devRef .tc main_v31) := by
  after_results_simp
theorem hidden_keep_arg4 : hidden W (Proc.devRef .tc main_arg4) = W (Proc.devRef .tc main_arg4) := by
  after_results_simp
theorem hidden_keep_arg5 : hidden W (Proc.devRef .tc main_arg5) = W (Proc.devRef .tc main_arg5) := by
  after_results_simp

/-! ## The second layer after its product: propagate, add the bias; then the log-softmax -/

/-- The reference computes the per-edge normalisation anew for its second layer; it is the same term of the edge list. -/
theorem norm_again (x1 : (⟨S2x3200000, .i32⟩ : BufTy).Contents (Elt F)) : val_main_v65 (F := F) x1 = val_main_v32 (F := F) x1 := by
  unfold val_main_v65 val_main_v57 val_main_v64 val_main_v56 val_main_v63 val_main_v55 val_main_v62 val_main_v52 val_main_v54 val_main_v59 val_main_v61 val_main_v51 val_main_v53 val_main_v58 val_main_v60 val_main_c_10 val_main_c_11 val_main_c_12 val_main_c_13 val_main_v32 val_main_v24 val_main_v31 val_main_v23 val_main_v30 val_main_v22 val_main_v29 val_main_v19 val_main_v21 val_main_v26 val_main_v28 val_main_v18 val_main_v20 val_main_v25 val_main_v27 val_main_c val_main_c_4 val_main_c_5 val_main_c_6
  rfl

/-- The buffers after the stretch that follows the second product. -/
abbrev scores : Valuation τ sig (Elt F) := after hostOps2 W

/-- The scores before the log-softmax: the second product's rows gathered along the sources, scaled by the normalisation,
    summed along the destinations, the bias added. -/
theorem scores_val (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (x4 : (⟨S16x64, .f32⟩ : BufTy).Contents (Elt F)) (x5 : (⟨S64, .f32⟩ : BufTy).Contents (Elt F))
    (h50 : W (Proc.devRef .tc main_v50) = val_main_v50 (F := F) x0 x1 x2 x3 x4)
    (h3 : W (Proc.devRef .tc main_v3) = val_main_v3 (F := F) x1) (h6 : W (Proc.devRef .tc main_v6) = val_main_v6 (F := F) x1)
    (h31 : W (Proc.devRef .tc main_v31) = val_main_v32 (F := F) x1) (hb : W (Proc.devRef .tc main_arg5) = x5) :
    scores W (Proc.devRef .tc main_v66) = val_main_v81 (F := F) x0 x1 x2 x3 x4 x5 := by
  after_results_simp
  rw [h50, h3, h6, h31.trans (norm_again x1).symm, hb]
  rfl

/-- The buffers after the log-softmax's own stretch. -/
abbrev softmaxed : Valuation τ sig (Elt F) := after hostOps2_1 W

/-- The log-softmax of the scores, row by row: each entry less the row's maximum, less the logarithm of the sum of the
    exponentials of the row so shifted. -/
theorem softmaxed_val (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (x4 : (⟨S16x64, .f32⟩ : BufTy).Contents (Elt F)) (x5 : (⟨S64, .f32⟩ : BufTy).Contents (Elt F))
    (h66 : W (Proc.devRef .tc main_v66) = val_main_v81 (F := F) x0 x1 x2 x3 x4 x5) :
    softmaxed W (Proc.devRef .tc main_v67) = val_main_v82 (F := F) x0 x1 x2 x3 x4 x5 := by
  after_results_simp
  simp only [ofBuf_toBuf]
  rw [h66]
  rfl

/-- The buffers after the two stretches that follow the second product. -/
abbrev logits : Valuation τ sig (Elt F) := after hostOps2_1 (after hostOps2 W)

/-- The result: the log-softmax of the second layer's scores. -/
theorem logits_val (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F))
    (x4 : (⟨S16x64, .f32⟩ : BufTy).Contents (Elt F)) (x5 : (⟨S64, .f32⟩ : BufTy).Contents (Elt F))
    (h50 : W (Proc.devRef .tc main_v50) = val_main_v50 (F := F) x0 x1 x2 x3 x4)
    (h3 : W (Proc.devRef .tc main_v3) = val_main_v3 (F := F) x1) (h6 : W (Proc.devRef .tc main_v6) = val_main_v6 (F := F) x1)
    (h31 : W (Proc.devRef .tc main_v31) = val_main_v32 (F := F) x1) (hb : W (Proc.devRef .tc main_arg5) = x5) :
    logits W (Proc.devRef .tc main_v67) = val_main_v82 (F := F) x0 x1 x2 x3 x4 x5 :=
  softmaxed_val (scores W) x0 x1 x2 x3 x4 x5 (scores_val W x0 x1 x2 x3 x4 x5 h50 h3 h6 h31 hb)

end Cert.KernelIdeal.HostStages

end
-- ==== Proof.KernelValue.lean ====
/-
  The kernel program's result as a value of @main's arguments, at the ideal instance.

  The program's buffers are followed from the launch to the return: the host stretches by the lemmas that read them as
  the reference's stages (HostStages), each matrix-product region by the fact that its fifty row blocks, written back,
  make the whole product of the two arrays the region found (Region0, Region1), and a buffer a region does not write
  keeps what it held. The result buffer ends at the reference's composed term of the six arguments.
-/
import proofs.«179819_j7026566496715_1_alg».proof.Proof.Gen.KernelIdeal.Frame
import proofs.«179819_j7026566496715_1_alg».proof.Proof.Region0
import proofs.«179819_j7026566496715_1_alg».proof.Proof.Region1
import proofs.«179819_j7026566496715_1_alg».proof.Proof.HostStages

set_option maxRecDepth 16384

noncomputable section

namespace Cert.KernelIdeal.KernelValue

open Cert.KernelIdeal Cert.KernelIdeal.Gen Idealize.ShloMosaic Idealize.ShloMosaic.TcCoe Idealize.ShloMosaic.StableHlo Idealize.SL.Sem
open Cert.ReferenceIdeal.ReadP

variable (m : (ℓ : Loc nD τ sig) → Buf (Elt Ideal) ℓ) (ρ : Dev nD → PrngReg) (c : Dev nD)

/-! ## Up to the first product -/

theorem src_at_first : W3 m ρ c (Proc.devRef .tc main_v3) = val_main_v3 (F := Ideal) (m ((c : Thread nD τ).loc main_arg1)) :=
  (HostStages.norms_keep_v3 (W1 m ρ c)).trans (HostStages.edges_src (W0 m ρ c))
theorem dst_at_first : W3 m ρ c (Proc.devRef .tc main_v6) = val_main_v6 (F := Ideal) (m ((c : Thread nD τ).loc main_arg1)) :=
  (HostStages.norms_keep_v6 (W1 m ρ c)).trans (HostStages.edges_dst (W0 m ρ c))
theorem norm_at_first : W3 m ρ c (Proc.devRef .tc main_v31) = val_main_v32 (F := Ideal) (m ((c : Thread nD τ).loc main_arg1)) :=
  HostStages.norms_norm (W1 m ρ c) (m ((c : Thread nD τ).loc main_arg1)) (HostStages.edges_src (W0 m ρ c)) (HostStages.edges_dst (W0 m ρ c))
    (HostStages.edges_pos (W0 m ρ c)) (HostStages.edges_rsqrt (W0 m ρ c)) (HostStages.edges_zero (W0 m ρ c))
theorem arg0_at_first : W3 m ρ c (Proc.devRef .tc main_arg0) = m ((c : Thread nD τ).loc main_arg0) :=
  (HostStages.norms_keep_arg0 (W1 m ρ c)).trans (HostStages.edges_keep_arg0 (W0 m ρ c))
theorem arg2_at_first : W3 m ρ c (Proc.devRef .tc main_arg2) = m ((c : Thread nD τ).loc main_arg2) :=
  (HostStages.norms_keep_arg2 (W1 m ρ c)).trans (HostStages.edges_keep_arg2 (W0 m ρ c))
theorem arg3_at_first : W3 m ρ c (Proc.devRef .tc main_arg3) = m ((c : Thread nD τ).loc main_arg3) :=
  (HostStages.norms_keep_arg3 (W1 m ρ c)).trans (HostStages.edges_keep_arg3 (W0 m ρ c))
theorem arg4_at_first : W3 m ρ c (Proc.devRef .tc main_arg4) = m ((c : Thread nD τ).loc main_arg4) :=
  (HostStages.norms_keep_arg4 (W1 m ρ c)).trans (HostStages.edges_keep_arg4 (W0 m ρ c))
theorem arg5_at_first : W3 m ρ c (Proc.devRef .tc main_arg5) = m ((c : Thread nD τ).loc main_arg5) :=
  (HostStages.norms_keep_arg5 (W1 m ρ c)).trans (HostStages.edges_keep_arg5 (W0 m ρ c))

/-! ## The first product, and what it leaves alone -/

/-- After the first region its output array holds the whole product of the features and the first weights. -/
theorem first_product : W4 m ρ c (Proc.devRef .tc main_v32) = val_main_v17 (F := Ideal) (m ((c : Thread nD τ).loc main_arg0)) (m ((c : Thread nD τ).loc main_arg2)) := by
  refine (W4_arr m ρ c 2).trans ((Region0.final0 (V3 m ρ) c).trans ?_)
  show Host.dotGeneral (F := Ideal) (φ₁ := .f32) (φ₂ := .f32) Cert.ReferenceIdeal.dot_S100000x512_S512x16_S100000x16_1_0_0_1_n_n none (W3 m ρ c (Proc.devRef .tc main_arg0)) (W3 m ρ c (Proc.devRef .tc main_arg2)) = _
  rw [arg0_at_first, arg2_at_first]
  rfl
theorem src_past_first : W4 m ρ c (Proc.devRef .tc main_v3) = W3 m ρ c (Proc.devRef .tc main_v3) :=
  W4_of_ne m ρ c main_v3 (by decide)
theorem dst_past_first : W4 m ρ c (Proc.devRef .tc main_v6) = W3 m ρ c (Proc.devRef .tc main_v6) :=
  W4_of_ne m ρ c main_v6 (by decide)
theorem norm_past_first : W4 m ρ c (Proc.devRef .tc main_v31) = W3 m ρ c (Proc.devRef .tc main_v31) :=
  W4_of_ne m ρ c main_v31 (by decide)
theorem arg3_past_first : W4 m ρ c (Proc.devRef .tc main_arg3) = W3 m ρ c (Proc.devRef .tc main_arg3) :=
  W4_of_ne m ρ c main_arg3 (by decide)
theorem arg4_past_first : W4 m ρ c (Proc.devRef .tc main_arg4) = W3 m ρ c (Proc.devRef .tc main_arg4) :=
  W4_of_ne m ρ c main_arg4 (by decide)
theorem arg5_past_first : W4 m ρ c (Proc.devRef .tc main_arg5) = W3 m ρ c (Proc.devRef .tc main_arg5) :=
  W4_of_ne m ρ c main_arg5 (by decide)

/-! ## Between the products -/

theorem hidden_at_second : W6 m ρ c (Proc.devRef .tc main_v49)
    = val_main_v49 (F := Ideal) (m ((c : Thread nD τ).loc main_arg0)) (m ((c : Thread nD τ).loc main_arg1)) (m ((c : Thread nD τ).loc main_arg2)) (m ((c : Thread nD τ).loc main_arg3)) :=
  HostStages.hidden_val (W4 m ρ c) _ _ _ _ (first_product m ρ c)
    ((src_past_first m ρ c).trans (src_at_first m ρ c)) ((dst_past_first m ρ c).trans (dst_at_first m ρ c))
    ((norm_past_first m ρ c).trans (norm_at_first m ρ c)) ((arg3_past_first m ρ c).trans (arg3_at_first m ρ c))
theorem src_at_second : W6 m ρ c (Proc.devRef .tc main_v3) = val_main_v3 (F := Ideal) (m ((c : Thread nD τ).loc main_arg1)) :=
  (HostStages.hidden_keep_v3 (W4 m ρ c)).trans ((src_past_first m ρ c).trans (src_at_first m ρ c))
theorem dst_at_second : W6 m ρ c (Proc.devRef .tc main_v6) = val_main_v6 (F := Ideal) (m ((c : Thread nD τ).loc main_arg1)) :=
  (HostStages.hidden_keep_v6 (W4 m ρ c)).trans ((dst_past_first m ρ c).trans (dst_at_first m ρ c))
theorem norm_at_second : W6 m ρ c (Proc.devRef .tc main_v31) = val_main_v32 (F := Ideal) (m ((c : Thread nD τ).loc main_arg1)) :=
  (HostStages.hidden_keep_v31 (W4 m ρ c)).trans ((norm_past_first m ρ c).trans (norm_at_first m ρ c))
theorem arg4_at_second : W6 m ρ c (Proc.devRef .tc main_arg4) = m ((c : Thread nD τ).loc main_arg4) :=
  (HostStages.hidden_keep_arg4 (W4 m ρ c)).trans ((arg4_past_first m ρ c).trans (arg4_at_first m ρ c))
theorem arg5_at_second : W6 m ρ c (Proc.devRef .tc main_arg5) = m ((c : Thread nD τ).loc main_arg5) :=
  (HostStages.hidden_keep_arg5 (W4 m ρ c)).trans ((arg5_past_first m ρ c).trans (arg5_at_first m ρ c))

/-! ## The second product, and what it leaves alone -/

/-- After the second region its output array holds the whole product of the hidden features and the second weights. -/
theorem second_product : W7 m ρ c (Proc.devRef .tc main_v50)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region1.final1 (V6 m ρ) c).trans ?_)
  show Host.dotGeneral (F := Ideal) (φ₁ := .f32) (φ₂ := .f32) Cert.ReferenceIdeal.dot_S100000x16_S16x64_S100000x64_1_0_0_1_n_n none (W6 m ρ c (Proc.devRef .tc main_v49)) (W6 m ρ c (Proc.devRef .tc main_arg4)) = _
  rw [hidden_at_second, arg4_at_second]
  rfl
theorem src_past_second : W7 m ρ c (Proc.devRef .tc main_v3) = W6 m ρ c (Proc.devRef .tc main_v3) :=
  W7_of_ne m ρ c main_v3 (by decide)
theorem dst_past_second : W7 m ρ c (Proc.devRef .tc main_v6) = W6 m ρ c (Proc.devRef .tc main_v6) :=
  W7_of_ne m ρ c main_v6 (by decide)
theorem norm_past_second : W7 m ρ c (Proc.devRef .tc main_v31) = W6 m ρ c (Proc.devRef .tc main_v31) :=
  W7_of_ne m ρ c main_v31 (by decide)
theorem arg5_past_second : W7 m ρ c (Proc.devRef .tc main_arg5) = W6 m ρ c (Proc.devRef .tc main_arg5) :=
  W7_of_ne m ρ c main_arg5 (by decide)

/-! ## The result -/

/-- The result buffer at the return holds the reference's composed term of the six arguments. -/
theorem result : W9 m ρ c (Proc.devRef .tc main_v67)
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  HostStages.logits_val (W7 m ρ c) _ _ _ _ _ _ (second_product m ρ c)
    ((src_past_second m ρ c).trans (src_at_second m ρ c)) ((dst_past_second m ρ c).trans (dst_at_second m ρ c))
    ((norm_past_second m ρ c).trans (norm_at_second m ρ c)) ((arg5_past_second m ρ c).trans (arg5_at_second m ρ c))

end Cert.KernelIdeal.KernelValue

end
-- ==== Proof.RefStages.lean ====
/-
  The reference's run, read back stretch by stretch.

  The reference is a straight line of 120 host operations. Its operation list is cut into five stretches — the edge
  lists, the degrees and their inverse square roots; the first product and the per-edge normalisation; the first
  layer's propagation, bias and rectifier and the second product; the second layer's normalisation, propagation and
  bias; the log-softmax — and each stretch is read from ANY contents `W` of the buffers: the buffer it leaves is the stage of that
  name (the functions `val_…` of @main's arguments), provided the buffers it starts from hold the earlier stages. No
  operation is opened. The five readings compose to the result buffer's value after the whole line, and the line's run
  (every weakly fair execution terminates with each buffer at the fold of the operations) gives the reference's run
  with its result at that value and its arguments unchanged.
-/
import proofs.«179819_j7026566496715_1_alg».proof.Proof.RefRun
import proofs.«179819_j7026566496715_1_alg».proof.Proof.RefRead
import proofs.«179819_j7026566496715_1_alg».proof.Proof.LibTypedRef
import Idealize.ShloMosaic.Lib.StableHlo.Run

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.ReadP
open Cert.LibTypedRef (ofBuf_toBuf)

variable {F : FTy → Type} [FloatOps F]

/-! ## The five stretches -/

/-- The edge lists with the self loops appended, the in-degrees, where they are positive, and their inverse square roots. -/
abbrev opsLists : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- The inverse square roots put to zero where the in-degree is not positive, the first product, and the per-edge normalisation. -/
abbrev opsNorm : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    binary main_arg0 main_arg2 main_v17 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v16 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v27 (broadcastInDim S3300000 ![] bcast_S_S3300000 : (⟨S_, .i32⟩ : BufTy).Contents (Elt F) → (⟨S3300000, .i32⟩ : BufTy).Contents (Elt F)),
    binary main_v6 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v6 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)) ]

/-- The first layer's gather, scaling, scatter-add, bias and rectifier, and the second product. -/
abbrev opsHidden : List (HloOp τ sig (Elt F)) :=
  [ nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v17 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg4 main_v50 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)) ]

/-- The second layer's normalisation, gather, scaling, scatter-add and bias. -/
abbrev opsScores : List (HloOp τ sig (Elt F)) :=
  [ nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v16 main_v56 main_v57 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_12 (constantI S_ 32 0#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v60 (broadcastInDim S3300000 ![] bcast_S_S3300000 : (⟨S_, .i32⟩ : BufTy).Contents (Elt F) → (⟨S3300000, .i32⟩ : BufTy).Contents (Elt F)),
    binary main_v6 main_v60 main_v61 (addi : (⟨S3300000, .i32⟩ : BufTy).Contents (Elt F) → (⟨S3300000, .i32⟩ : BufTy).Contents (Elt F) → (⟨S3300000, .i32⟩ : BufTy).Contents (Elt F)),
    ternary main_v59 main_v61 main_v6 main_v62 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v62 main_v63 (broadcastInDim S3300000x1 ![0] bcast_S3300000_S3300000x1_0 : (⟨S3300000, .i32⟩ : BufTy).Contents (Elt F) → (⟨S3300000x1, .i32⟩ : BufTy).Contents (Elt F)),
    binary main_v16 main_v63 main_v64 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v57 main_v64 main_v65 (mulf : (⟨S3300000, .f32⟩ : BufTy).Contents (Elt F) → (⟨S3300000, .f32⟩ : BufTy).Contents (Elt F) → (⟨S3300000, .f32⟩ : BufTy).Contents (Elt F)),
    nullary main_c_14 (constantI S_ 32 0#32),
    unary main_c_14 main_v66 (broadcastInDim S3300000 ![] bcast_S_S3300000 : (⟨S_, .i32⟩ : BufTy).Contents (Elt F) → (⟨S3300000, .i32⟩ : BufTy).Contents (Elt F)),
    binary main_v3 main_v66 main_v67 (cmpi .slt : (⟨S3300000, .i32⟩ : BufTy).Contents (Elt F) → (⟨S3300000, .i32⟩ : BufTy).Contents (Elt F) → (⟨S3300000, .i1⟩ : BufTy).Contents (Elt F)),
    nullary main_c_15 (constantI S_ 32 100000#32),
    unary main_c_15 main_v68 (broadcastInDim S3300000 ![] bcast_S_S3300000 : (⟨S_, .i32⟩ : BufTy).Contents (Elt F) → (⟨S3300000, .i32⟩ : BufTy).Contents (Elt F)),
    binary main_v3 main_v68 main_v69 (addi : (⟨S3300000, .i32⟩ : BufTy).Contents (Elt F) → (⟨S3300000, .i32⟩ : BufTy).Contents (Elt F) → (⟨S3300000, .i32⟩ : BufTy).Contents (Elt F)),
    ternary main_v67 main_v69 main_v3 main_v70 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v70 main_v71 (broadcastInDim S3300000x1 ![0] bcast_S3300000_S3300000x1_0 : (⟨S3300000, .i32⟩ : BufTy).Contents (Elt F) → (⟨S3300000x1, .i32⟩ : BufTy).Contents (Elt F)),
    binary main_v50 main_v71 main_v72 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v65 main_v73 (broadcastInDim S3300000x1 ![0] bcast_S3300000_S3300000x1_0 : (⟨S3300000, .f32⟩ : BufTy).Contents (Elt F) → (⟨S3300000x1, .f32⟩ : BufTy).Contents (Elt F)),
    unary main_v73 main_v74 (broadcastInDim S3300000x64 ![0, 1] bcast_S3300000x1_S3300000x64_0_1 : (⟨S3300000x1, .f32⟩ : BufTy).Contents (Elt F) → (⟨S3300000x64, .f32⟩ : BufTy).Contents (Elt F)),
    binary main_v72 main_v74 main_v75 (mulf : (⟨S3300000x64, .f32⟩ : BufTy).Contents (Elt F) → (⟨S3300000x64, .f32⟩ : BufTy).Contents (Elt F) → (⟨S3300000x64, .f32⟩ : BufTy).Contents (Elt F)),
    nullary main_cst_16 (constant S_ .f32 0x00000000#32),
    unary main_cst_16 main_v76 (broadcastInDim S100000x64 ![] bcast_S_S100000x64 : (⟨S_, .f32⟩ : BufTy).Contents (Elt F) → (⟨S100000x64, .f32⟩ : BufTy).Contents (Elt F)),
    unary main_v6 main_v77 (broadcastInDim S3300000x1 ![0] bcast_S3300000_S3300000x1_0 : (⟨S3300000, .i32⟩ : BufTy).Contents (Elt F) → (⟨S3300000x1, .i32⟩ : BufTy).Contents (Elt F)),
    ternary main_v76 main_v77 main_v75 main_v78 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)) ]

/-- The log-softmax over each row. -/
abbrev opsSoftmax : List (HloOp τ sig (Elt F)) :=
  [ TRef.nullary (TRef.of (T := ⟨S_, .f32⟩) main_call2_cst) (constant S_ .f32 0xFF800000#32),
    TRef.binary (TRef.of (T := ⟨S100000x64, .f32⟩) main_v81) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v81) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v82) subf ]
/-- The reference's line is the five stretches in order. -/
theorem ops_split : (RunP.ops : List (HloOp τ sig (Elt F))) = opsLists ++ (opsNorm ++ (opsHidden ++ (opsScores ++ opsSoftmax))) := rfl

variable (W : Valuation τ sig (Elt F))

/-! ## The first stretch -/

abbrev lists : Valuation τ sig (Elt F) := after opsLists W

/-- The sources with the self loops appended. -/
theorem lists_src : lists W (Proc.devRef .tc main_v3) = val_main_v3 (F := F) (W (Proc.devRef .tc main_arg1)) := by
  after_results
  rfl
/-- The destinations with the self loops appended. -/
theorem lists_dst : lists W (Proc.devRef .tc main_v6) = val_main_v6 (F := F) (W (Proc.devRef .tc main_arg1)) := by
  after_results
  rfl
/-- Where the in-degree is positive. -/
theorem lists_pos : lists W (Proc.devRef .tc main_v12) = val_main_v12 (F := F) (W (Proc.devRef .tc main_arg1)) := by
  after_results
  rfl
/-- The inverse square root of the in-degree raised to at least one. -/
theorem lists_rsqrt : lists W (Proc.devRef .tc main_v15) = val_main_v15 (F := F) (W (Proc.devRef .tc main_arg1)) := by
  after_results
  rfl
/-- The zero that replaces it where the in-degree is not positive. -/
theorem lists_zero : lists W (Proc.devRef .tc main_cst_3) = val_main_cst_3 (F := F) := by
  after_results
  rfl
theorem lists_keep_arg0 : lists W (Proc.devRef .tc main_arg0) = W (Proc.devRef .tc main_arg0) := by
  after_results_simp
theorem lists_keep_arg2 : lists W (Proc.devRef .tc main_arg2) = W (Proc.devRef .tc main_arg2) := by
  after_results_simp
theorem lists_keep_arg3 : lists W (Proc.devRef .tc main_arg3) = W (Proc.devRef .tc main_arg3) := by
  after_results_simp
theorem lists_keep_arg4 : lists W (Proc.devRef .tc main_arg4) = W (Proc.devRef .tc main_arg4) := by
  after_results_simp
theorem lists_keep_arg5 : lists W (Proc.devRef .tc main_arg5) = W (Proc.devRef .tc main_arg5) := by
  after_results_simp

/-! ## The second stretch -/

abbrev norm : Valuation τ sig (Elt F) := after opsNorm W

/-- The inverse square roots of the in-degrees, zero where the in-degree is not positive. -/
theorem norm_dinv (x1 : (⟨S2x3200000, .i32⟩ : BufTy).Contents (Elt F))
    (h12 : W (Proc.devRef .tc main_v12) = val_main_v12 (F := F) x1) (h15 : W (Proc.devRef .tc main_v15) = val_main_v15 (F := F) x1) (hz : W (Proc.devRef .tc main_cst_3) = val_main_cst_3 (F := F)) :
    norm W (Proc.devRef .tc main_v16) = val_main_v16 (F := F) x1 := by
  after_results_simp
  try simp only [ofBuf_toBuf]
  rw [h12, h15, hz]
  rfl
/-- The first product. -/
theorem norm_product (x0 : (⟨S100000x512, .f32⟩ : BufTy).Contents (Elt F)) (x2 : (⟨S512x16, .f32⟩ : BufTy).Contents (Elt F))
    (h0 : W (Proc.devRef .tc main_arg0) = x0) (h2 : W (Proc.devRef .tc main_arg2) = x2) :
    norm W (Proc.devRef .tc main_v17) = val_main_v17 (F := F) x0 x2 := by
  after_results_simp
  try simp only [ofBuf_toBuf]
  rw [h0, h2]
  rfl
/-- The per-edge normalisation. -/
theorem norm_norm (x1 : (⟨S2x3200000, .i32⟩ : BufTy).Contents (Elt F))
    (h3 : W (Proc.devRef .tc main_v3) = val_main_v3 (F := F) x1) (h6 : W (Proc.devRef .tc main_v6) = val_main_v6 (F := F) x1) (h12 : W (Proc.devRef .tc main_v12) = val_main_v12 (F := F) x1) (h15 : W (Proc.devRef .tc main_v15) = val_main_v15 (F := F) x1) (hz : W (Proc.devRef .tc main_cst_3) = val_main_cst_3 (F := F)) :
    norm W (Proc.devRef .tc main_v32) = val_main_v32 (F := F) x1 := by
  after_results_simp
  try simp only [ofBuf_toBuf]
  rw [h3, h6, h12, h15, hz]
  rfl
theorem norm_keep_v3 : norm W (Proc.devRef .tc main_v3) = W (Proc.devRef .tc main_v3) := by
  after_results_simp
theorem norm_keep_v6 : norm W (Proc.devRef .tc main_v6) = W (Proc.devRef .tc main_v6) := by
  after_results_simp
theorem norm_keep_arg3 : norm W (Proc.devRef .tc main_arg3) = W (Proc.devRef .tc main_arg3) := by
  after_results_simp
theorem norm_keep_arg4 : norm W (Proc.devRef .tc main_arg4) = W (Proc.devRef .tc main_arg4) := by
  after_results_simp
theorem norm_keep_arg5 : norm W (Proc.devRef .tc main_arg5) = W (Proc.devRef .tc main_arg5) := by
  after_results_simp

/-! ## The third stretch -/

abbrev hidden : Valuation τ sig (Elt F) := after opsHidden W

/-- The second product, of the rectified first layer and the second weights. -/
theorem hidden_product (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x64, .f32⟩ : BufTy).Contents (Elt F))
    (h17 : W (Proc.devRef .tc main_v17) = val_main_v17 (F := F) x0 x2) (h3 : W (Proc.devRef .tc main_v3) = val_main_v3 (F := F) x1) (h6 : W (Proc.devRef .tc main_v6) = val_main_v6 (F := F) x1) (h32 : W (Proc.devRef .tc main_v32) = val_main_v32 (F := F) x1) (hb3 : W (Proc.devRef .tc main_arg3) = x3) (hb4 : W (Proc.devRef .tc main_arg4) = x4) :
    hidden W (Proc.devRef .tc main_v50) = val_main_v50 (F := F) x0 x1 x2 x3 x4 := by
  after_results_simp
  try simp only [ofBuf_toBuf]
  rw [h17, h3, h6, h32, hb3, hb4]
  rfl
theorem hidden_keep_v3 : hidden W (Proc.devRef .tc main_v3) = W (Proc.devRef .tc main_v3) := by
  after_results_simp
theorem hidden_keep_v6 : hidden W (Proc.devRef .tc main_v6) = W (Proc.devRef .tc main_v6) := by
  after_results_simp
theorem hidden_keep_v16 : hidden W (Proc.devRef .tc main_v16) = W (Proc.devRef .tc main_v16) := by
  after_results_simp
theorem hidden_keep_arg5 : hidden W (Proc.devRef .tc main_arg5) = W (Proc.devRef .tc main_arg5) := by
  after_results_simp

/-! ## The fourth stretch -/

abbrev scores : Valuation τ sig (Elt F) := after opsScores W

/-- The second layer's scores before the log-softmax. -/
theorem scores_val (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x64, .f32⟩ : BufTy).Contents (Elt F)) (x5 : (⟨S64, .f32⟩ : BufTy).Contents (Elt F))
    (h50 : W (Proc.devRef .tc main_v50) = val_main_v50 (F := F) x0 x1 x2 x3 x4) (h3 : W (Proc.devRef .tc main_v3) = val_main_v3 (F := F) x1) (h6 : W (Proc.devRef .tc main_v6) = val_main_v6 (F := F) x1) (h16 : W (Proc.devRef .tc main_v16) = val_main_v16 (F := F) x1) (hb5 : W (Proc.devRef .tc main_arg5) = x5) :
    scores W (Proc.devRef .tc main_v81) = val_main_v81 (F := F) x0 x1 x2 x3 x4 x5 := by
  after_results_simp
  try simp only [ofBuf_toBuf]
  rw [h50, h3, h6, h16, hb5]
  rfl

/-! ## The fifth stretch -/

abbrev out : Valuation τ sig (Elt F) := after opsSoftmax W

/-- The result: the log-softmax of the scores. -/
theorem out_val (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x64, .f32⟩ : BufTy).Contents (Elt F)) (x5 : (⟨S64, .f32⟩ : BufTy).Contents (Elt F))
    (h81 : W (Proc.devRef .tc main_v81) = val_main_v81 (F := F) x0 x1 x2 x3 x4 x5) :
    out W (Proc.devRef .tc main_v82) = val_main_v82 (F := F) x0 x1 x2 x3 x4 x5 := by
  after_results_simp
  try simp only [ofBuf_toBuf]
  rw [h81]
  rfl

/-! ## The whole line -/

section Whole
variable (m : (ℓ : Loc nD τ sig) → Buf (Elt F) ℓ) (c : Dev nD)

/-- The buffers at the launch and after the first, the second, the third and the fourth stretch. -/
abbrev s0 : Valuation τ sig (Elt F) := launchContents m c
abbrev s1 : Valuation τ sig (Elt F) := after opsLists (s0 m c)
abbrev s2 : Valuation τ sig (Elt F) := after opsNorm (s1 m c)
abbrev s3 : Valuation τ sig (Elt F) := after opsHidden (s2 m c)
abbrev s4 : Valuation τ sig (Elt F) := after opsScores (s3 m c)

/-- After the whole line the result buffer holds the last stage at the six arguments. -/
theorem result : after (RunP.ops (F := F)) (launchContents m c) (Proc.devRef .tc main_v82)
    = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, StableHlo.after_append, StableHlo.after_append, StableHlo.after_append, StableHlo.after_append]
  have a3 : s1 m c (Proc.devRef .tc main_v3) = val_main_v3 (F := F) (m ((c.tc : Thread nD τ).loc main_arg1)) := lists_src (s0 m c)
  have a6 : s1 m c (Proc.devRef .tc main_v6) = val_main_v6 (F := F) (m ((c.tc : Thread nD τ).loc main_arg1)) := lists_dst (s0 m c)
  have a12 : s1 m c (Proc.devRef .tc main_v12) = val_main_v12 (F := F) (m ((c.tc : Thread nD τ).loc main_arg1)) := lists_pos (s0 m c)
  have a15 : s1 m c (Proc.devRef .tc main_v15) = val_main_v15 (F := F) (m ((c.tc : Thread nD τ).loc main_arg1)) := lists_rsqrt (s0 m c)
  have az : s1 m c (Proc.devRef .tc main_cst_3) = val_main_cst_3 (F := F) := lists_zero (s0 m c)
  have a_0 : s1 m c (Proc.devRef .tc main_arg0) = m ((c.tc : Thread nD τ).loc main_arg0) := lists_keep_arg0 (s0 m c)
  have a_2 : s1 m c (Proc.devRef .tc main_arg2) = m ((c.tc : Thread nD τ).loc main_arg2) := lists_keep_arg2 (s0 m c)
  have a_3 : s1 m c (Proc.devRef .tc main_arg3) = m ((c.tc : Thread nD τ).loc main_arg3) := lists_keep_arg3 (s0 m c)
  have a_4 : s1 m c (Proc.devRef .tc main_arg4) = m ((c.tc : Thread nD τ).loc main_arg4) := lists_keep_arg4 (s0 m c)
  have a_5 : s1 m c (Proc.devRef .tc main_arg5) = m ((c.tc : Thread nD τ).loc main_arg5) := lists_keep_arg5 (s0 m c)
  have b16 : s2 m c (Proc.devRef .tc main_v16) = val_main_v16 (F := F) (m ((c.tc : Thread nD τ).loc main_arg1)) := norm_dinv (s1 m c) _ a12 a15 az
  have b17 : s2 m c (Proc.devRef .tc main_v17) = val_main_v17 (F := F) (m ((c.tc : Thread nD τ).loc main_arg0)) (m ((c.tc : Thread nD τ).loc main_arg2)) := norm_product (s1 m c) _ _ a_0 a_2
  have b32 : s2 m c (Proc.devRef .tc main_v32) = val_main_v32 (F := F) (m ((c.tc : Thread nD τ).loc main_arg1)) := norm_norm (s1 m c) _ a3 a6 a12 a15 az
  have b3 : s2 m c (Proc.devRef .tc main_v3) = val_main_v3 (F := F) (m ((c.tc : Thread nD τ).loc main_arg1)) := (norm_keep_v3 (s1 m c)).trans a3
  have b6 : s2 m c (Proc.devRef .tc main_v6) = val_main_v6 (F := F) (m ((c.tc : Thread nD τ).loc main_arg1)) := (norm_keep_v6 (s1 m c)).trans a6
  have b_3 : s2 m c (Proc.devRef .tc main_arg3) = m ((c.tc : Thread nD τ).loc main_arg3) := (norm_keep_arg3 (s1 m c)).trans a_3
  have b_4 : s2 m c (Proc.devRef .tc main_arg4) = m ((c.tc : Thread nD τ).loc main_arg4) := (norm_keep_arg4 (s1 m c)).trans a_4
  have b_5 : s2 m c (Proc.devRef .tc main_arg5) = m ((c.tc : Thread nD τ).loc main_arg5) := (norm_keep_arg5 (s1 m c)).trans a_5
  have c50 : s3 m c (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    hidden_product (s2 m c) _ _ _ _ _ b17 b3 b6 b32 b_3 b_4
  have c3 : s3 m c (Proc.devRef .tc main_v3) = val_main_v3 (F := F) (m ((c.tc : Thread nD τ).loc main_arg1)) := (hidden_keep_v3 (s2 m c)).trans b3
  have c6 : s3 m c (Proc.devRef .tc main_v6) = val_main_v6 (F := F) (m ((c.tc : Thread nD τ).loc main_arg1)) := (hidden_keep_v6 (s2 m c)).trans b6
  have c16 : s3 m c (Proc.devRef .tc main_v16) = val_main_v16 (F := F) (m ((c.tc : Thread nD τ).loc main_arg1)) := (hidden_keep_v16 (s2 m c)).trans b16
  have c_5 : s3 m c (Proc.devRef .tc main_arg5) = m ((c.tc : Thread nD τ).loc main_arg5) := (hidden_keep_arg5 (s2 m c)).trans b_5
  have d81 : s4 m c (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    scores_val (s3 m c) _ _ _ _ _ _ c50 c3 c6 c16 c_5
  exact out_val (s4 m c) _ _ _ _ _ _ d81

end Whole

set_option maxRecDepth 8192 in
set_option maxHeartbeats 48000000 in
/-- On every device, for any float values, from any memory with zero counters: every weakly fair execution of the
    reference terminates with its result at the last stage of the six arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
        = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq RunP.scopedRefs_eq RunP.scopedSems_eq defs main (fun _ => RunP.ops) RunP.main_eq (fun _ => RunP.ops_sub) m ρ)

end Cert.ReferenceIdeal.RefStages

end
-- ==== Proof.lean ====
/-
  The certificate: a two-layer graph convolution whose two dense products run as blocked kernels, against the same
  network with each product one whole `dot_general`.

  Both programs compute, from the features x, the edge list, and the weights and biases of two layers,
      log_softmax (P (relu (P (x · W1) + b1) · W2) + b2),
  where P gathers a matrix's rows along the edges' sources (self loops appended), scales each by the product of the
  inverse square roots of its two ends' in-degrees, and sums them along the destinations. The host operations that make
  P, the rectifier and the log-softmax are the same operations in the two programs, applied to the same operands, so
  they are carried as they stand and never opened. The one difference is how a product is computed: the kernel's program
  cuts the left matrix into fifty blocks of 2000 rows, multiplies each block by the whole right matrix (its operands
  narrowed to bf16, which at the ideal instance changes nothing) into a zero accumulator, and writes the fifty results
  back as the row blocks of the product; the reference contracts the whole arrays at once. Entry (r, q) is on both sides
  the sum over k of x(r, k) · w(k, q) — a zero plus a sum, and a sum re-indexed: no law that needs finiteness, so the
  precondition is never opened.

  The kernel's program: its run with the result buffer named (ResultRun), the buffers followed from the launch to the
  return (KernelValue, over HostStages for the host stretches and Region0, Region1 for the two products). The reference:
  its line of operations read stretch by stretch (RefStages). The frames of the two kernel programs are the generated
  ones; the reference's frame is its run with the result dropped; the idealization rewrote nothing.
-/
import proofs.«179819_j7026566496715_1_alg».proof.Defs
import proofs.«179819_j7026566496715_1_alg».proof.Proof.Gen.Kernel
import proofs.«179819_j7026566496715_1_alg».proof.Proof.Gen.Kernel.Skeleton
import proofs.«179819_j7026566496715_1_alg».proof.Proof.Gen.Kernel.Launch
import proofs.«179819_j7026566496715_1_alg».proof.Proof.Gen.Kernel.Points
import proofs.«179819_j7026566496715_1_alg».proof.Proof.Gen.Kernel.Frame
import proofs.«179819_j7026566496715_1_alg».proof.Proof.Gen.KernelIdeal
import proofs.«179819_j7026566496715_1_alg».proof.Proof.Gen.KernelIdeal.Skeleton
import proofs.«179819_j7026566496715_1_alg».proof.Proof.Gen.KernelIdeal.Launch
import proofs.«179819_j7026566496715_1_alg».proof.Proof.Gen.KernelIdeal.Points
import proofs.«179819_j7026566496715_1_alg».proof.Proof.Gen.KernelIdeal.Frame
import proofs.«179819_j7026566496715_1_alg».proof.Proof.Gen.ReferenceIdeal
import proofs.«179819_j7026566496715_1_alg».proof.Proof.Gen.Pre_finite_inputs
import proofs.«179819_j7026566496715_1_alg».proof.Proof.ResultRun
import proofs.«179819_j7026566496715_1_alg».proof.Proof.KernelValue
import proofs.«179819_j7026566496715_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result's value dropped. -/
theorem frame_referenceIdeal : Cert.frame_ReferenceIdeal := fun m ρ _ =>
  (θ_run Cert.ReferenceIdeal.defs _ _).mono (fun _ h c => (h c).2) (Cert.ReferenceIdeal.RefStages.run (F := Ideal) m ρ)

/-- The idealization rewrote no operation. -/
theorem preserves : Cert.preserves_Kernel_KernelIdeal := trivial

/-- From memories that agree on the six arguments both programs end with the result at one value: the reference's
    last stage at the kernel's arguments. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.RefStages.run (F := Ideal) m' ρ')
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
